-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S64x32 : Shape := ⟨2, ![64, 32]⟩
abbrev S64x33 : Shape := ⟨2, ![64, 33]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64x33 : S_.BroadcastsInDim S64x33 (![] : Fin 0 → Fin S64x33.rank)
  reducesTo_S64x33_S_d0_1 : S64x33.ReducesTo [0, 1] S_

variable [Facts]

def fn_part1 {F : FTy → Type} [FloatOps F] (main_arg2 : FVec F S64x32 .f32) (main_v13 : IVec S_ 1) (main_v16 : IVec S64x33 1) : IVec S_ 1 :=
  let main_c_5 : IVec S_ 1 := constantI S_ 1 1#1
  let main_v17 : IVec S_ 1 := (fun x v => Host.reduce IntOp.andi x v reducesTo_S64x33_S_d0_1 h_S_) main_v16 main_c_5
  let main_v18 : IVec S_ 1 := andi main_v13 main_v17
  let main_cst_6 : FVec F S_ .f32 := constant S_ .f32 0x00000000#32
  let main_v19 : FVec F S64x32 .f32 := broadcastInDim S64x32 ![] bcast_S_S64x32 main_cst_6
  let main_v20 : IVec S64x32 1 := cmpf .une main_arg2 main_v19
  let main_c_7 : IVec S_ 1 := constantI S_ 1 1#1
  let main_v21 : IVec S_ 1 := (fun x v => Host.reduce IntOp.andi x v reducesTo_S64x32_S_d0_1 h_S_) main_v20 main_c_7
  let main_v22 : IVec S_ 1 := andi main_v18 main_v21
  main_v22

def fn {F : FTy → Type} [FloatOps F] (main_arg0 : FVec F S131072x32 .f32) (main_arg1 : FVec F S64x32 .f32) (main_arg2 : FVec F S64x32 .f32) (main_arg3 : FVec F S64x33 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x33 .f32 := Host.absf main_arg3
  let main_cst_4 : FVec F S_ .f32 := constant S_ .f32 0x7F800000#32
  let main_v15 : FVec F S64x33 .f32 := broadcastInDim S64x33 ![] bcast_S_S64x33 main_cst_4
  let main_v16 : IVec S64x33 1 := cmpf .olt main_v14 main_v15
  fn_part1 (F := F) main_arg2 main_v13 main_v16
-- ==== Kernel.lean ====
abbrev S131072x32 : Shape := ⟨2, ![131072, 32]⟩
abbrev S64x32 : Shape := ⟨2, ![64, 32]⟩
abbrev S64x33 : Shape := ⟨2, ![64, 33]⟩
abbrev S_ : Shape := ⟨0, ![]⟩
abbrev S64x1 : Shape := ⟨2, ![64, 1]⟩
abbrev S64 : Shape := ⟨1, ![64]⟩
abbrev S1x64 : Shape := ⟨2, ![1, 64]⟩
abbrev S32x64 : Shape := ⟨2, ![32, 64]⟩
abbrev S131072 : Shape := ⟨1, ![131072]⟩
abbrev S1024x32 : Shape := ⟨2, ![1024, 32]⟩
abbrev S1024 : Shape := ⟨1, ![1024]⟩
abbrev S1024x1x32 : Shape := ⟨3, ![1024, 1, 32]⟩
abbrev S1x64x32 : Shape := ⟨3, ![1, 64, 32]⟩
abbrev S1024x64x32 : Shape := ⟨3, ![1024, 64, 32]⟩
abbrev S1024x64 : Shape := ⟨2, ![1024, 64]⟩

abbrev nBuf : Space → Nat
  | .hbm => 18
  | .vmem => 8
  | .smem => 0
  | _ => 0

abbrev bufTy : (tb : Table) → Fin (tcTables nBuf tb) → BufTy
  | .hbm, ⟨0, _⟩ => ⟨S131072x32, .f32⟩
  | .hbm, ⟨1, _⟩ => ⟨S64x32, .f32⟩
  | .hbm, ⟨2, _⟩ => ⟨S64x32, .f32⟩
  | .hbm, ⟨3, _⟩ => ⟨S64x33, .f32⟩
  | .hbm, ⟨4, _⟩ => ⟨S_, .f32⟩
  | .hbm, ⟨5, _⟩ => ⟨S64x32, .f32⟩
  | .hbm, ⟨6, _⟩ => ⟨S64x32, .f32⟩
  | .hbm, ⟨7, _⟩ => ⟨S64x32, .f32⟩
  | .hbm, ⟨8, _⟩ => ⟨S_, .f32⟩
  | .hbm, ⟨9, _⟩ => ⟨S64x32, .f32⟩
  | .hbm, ⟨10, _⟩ => ⟨S64x32, .f32⟩
  | .hbm, ⟨11, _⟩ => ⟨S64x32, .f32⟩
  | .hbm, ⟨12, _⟩ => ⟨S64x1, .f32⟩
  | .hbm, ⟨13, _⟩ => ⟨S64, .f32⟩
  | .hbm, ⟨14, _⟩ => ⟨S1x64, .f32⟩
  | .hbm, ⟨15, _⟩ => ⟨S32x64, .f32⟩
  | .hbm, ⟨16, _⟩ => ⟨S32x64, .bf16⟩
  | .hbm, ⟨17, _⟩ => ⟨S131072, .f32⟩
  | .local _ .vmem, ⟨0, _⟩ => ⟨S1024x32, .f32⟩
  | .local _ .vmem, ⟨1, _⟩ => ⟨S1024x32, .f32⟩
  | .local _ .vmem, ⟨2, _⟩ => ⟨S64x32, .f32⟩
  | .local _ .vmem, ⟨3, _⟩ => ⟨S64x32, .f32⟩
  | .local _ .vmem, ⟨4, _⟩ => ⟨S32x64, .bf16⟩
  | .local _ .vmem, ⟨5, _⟩ => ⟨S1x64, .f32⟩
  | .local _ .vmem, ⟨6, _⟩ => ⟨S1024, .f32⟩
  | .local _ .vmem, ⟨7, _⟩ => ⟨S1024, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x32 : S_.BroadcastsInDim S64x32 (![] : Fin 0 → Fin S64x32.rank)
  slices_S64x33_S64x32_0_0 : S64x33.Slices ![0, 0] S64x32
  slices_S64x33_S64x1_0_32 : S64x33.Slices ![0, 32] S64x1
  shapeCasts_S64x1_S64 : S64x1.ShapeCasts S64
  shapeCasts_S64_S1x64 : S64.ShapeCasts S1x64
  transposes_S64x32_S32x64_1_0 : S64x32.Transposes [1, 0] S32x64
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S1024x32_S1024x1x32 : S1024x32.ShapeCasts S1024x1x32
  shapeCasts_S64x32_S1x64x32 : S64x32.ShapeCasts S1x64x32
  broadcasts_S1024x1x32_S1024x64x32 : S1024x1x32.Broadcasts S1024x64x32
  broadcasts_S1x64x32_S1024x64x32 : S1x64x32.Broadcasts S1024x64x32
  reduces_S1024x64x32_S1024x64 : S1024x64x32.Reduces [2] S1024x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  inb_S1024_S1024_0 : ∀ a, (![0] : Fin 1 → Nat) a + S1024.size a ≤ S1024.size a
  h_S1024 : 0 < S1024.numel
  dot_S1024x32_S32x64_S1024x64_1_0_0_1_n_n_wf : DotDims.WF S1024x32 S32x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S131072x32.size a
  hwx0_0 : ∀ i : grid0.Coords, EltTy.bits .f32 = 32 ∨ (Rect.block (s := S131072x32) S1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S131072.size a
  hwx0_5 : ∀ i : grid0.Coords, EltTy.bits .f32 = 32 ∨ (Rect.block (s := S131072) S1024.size (cc0_transform_5 i) (hinb0_5 i)).WholeWords (EltTy.packing .f32)

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x32 : Shape := ⟨2, ![131072, 32]⟩
abbrev S64x32 : Shape := ⟨2, ![64, 32]⟩
abbrev S64x33 : Shape := ⟨2, ![64, 33]⟩
abbrev S131072x64 : Shape := ⟨2, ![131072, 64]⟩
abbrev S64x1 : Shape := ⟨2, ![64, 1]⟩
abbrev S64 : Shape := ⟨1, ![64]⟩
abbrev S1x64 : Shape := ⟨2, ![1, 64]⟩
abbrev S131072x1x32 : Shape := ⟨3, ![131072, 1, 32]⟩
abbrev S1x64x32 : Shape := ⟨3, ![1, 64, 32]⟩
abbrev S131072x64x32 : Shape := ⟨3, ![131072, 64, 32]⟩
abbrev S_ : Shape := ⟨0, ![]⟩
abbrev S131072 : Shape := ⟨1, ![131072]⟩

abbrev nBuf : Space → Nat
  | .hbm => 37
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S64x32, .f32⟩
  | .hbm, ⟨2, _⟩ => ⟨S64x32, .f32⟩
  | .hbm, ⟨3, _⟩ => ⟨S64x33, .f32⟩
  | .hbm, ⟨4, _⟩ => ⟨S64x32, .f32⟩
  | .hbm, ⟨5, _⟩ => ⟨S131072x64, .f32⟩
  | .hbm, ⟨6, _⟩ => ⟨S64x1, .f32⟩
  | .hbm, ⟨7, _⟩ => ⟨S64, .f32⟩
  | .hbm, ⟨8, _⟩ => ⟨S1x64, .f32⟩
  | .hbm, ⟨9, _⟩ => ⟨S131072x64, .f32⟩
  | .hbm, ⟨10, _⟩ => ⟨S131072x64, .f32⟩
  | .hbm, ⟨11, _⟩ => ⟨S131072x1x32, .f32⟩
  | .hbm, ⟨12, _⟩ => ⟨S1x64x32, .f32⟩
  | .hbm, ⟨13, _⟩ => ⟨S131072x64x32, .f32⟩
  | .hbm, ⟨14, _⟩ => ⟨S131072x64x32, .f32⟩
  | .hbm, ⟨15, _⟩ => ⟨S131072x64x32, .f32⟩
  | .hbm, ⟨16, _⟩ => ⟨S131072x64x32, .f32⟩
  | .hbm, ⟨17, _⟩ => ⟨S_, .f32⟩
  | .hbm, ⟨18, _⟩ => ⟨S64x32, .f32⟩
  | .hbm, ⟨19, _⟩ => ⟨S64x32, .f32⟩
  | .hbm, ⟨20, _⟩ => ⟨S64x32, .f32⟩
  | .hbm, ⟨21, _⟩ => ⟨S1x64x32, .f32⟩
  | .hbm, ⟨22, _⟩ => ⟨S131072x64x32, .f32⟩
  | .hbm, ⟨23, _⟩ => ⟨S131072x64x32, .f32⟩
  | .hbm, ⟨24, _⟩ => ⟨S_, .f32⟩
  | .hbm, ⟨25, _⟩ => ⟨S131072x64, .f32⟩
  | .hbm, ⟨26, _⟩ => ⟨S131072x64, .f32⟩
  | .hbm, ⟨27, _⟩ => ⟨S131072x64, .f32⟩
  | .hbm, ⟨28, _⟩ => ⟨S131072x64, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S131072, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S64x33_S64x32_0_0 : S64x33.Slices ![0, 0] S64x32
  slices_S64x33_S64x1_0_32 : S64x33.Slices ![0, 32] S64x1
  shapeCasts_S64x1_S64 : S64x1.ShapeCasts S64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x32_S131072x1x32_0_2 : S131072x32.BroadcastsInDim S131072x1x32 (![0, 2] : Fin 2 → Fin S131072x1x32.rank)
  bcast_S64x32_S1x64x32_1_2 : S64x32.BroadcastsInDim S1x64x32 (![1, 2] : Fin 2 → Fin S1x64x32.rank)
  bcast_S131072x1x32_S131072x64x32_0_1_2 : S131072x1x32.BroadcastsInDim S131072x64x32 (![0, 1, 2] : Fin 3 → Fin S131072x64x32.rank)
  bcast_S1x64x32_S131072x64x32_0_1_2 : S1x64x32.BroadcastsInDim S131072x64x32 (![0, 1, 2] : Fin 3 → Fin S131072x64x32.rank)
  bcast_S_S64x32 : S_.BroadcastsInDim S64x32 (![] : Fin 0 → Fin S64x32.rank)
  reducesTo_S131072x64x32_S131072x64_d2 : S131072x64x32.ReducesTo [2] S131072x64
  h_S_ : 0 < S_.numel
  reducesTo_S131072x64_S131072_d1 : S131072x64.ReducesTo [1] S131072
  bcast_S_S131072 : S_.BroadcastsInDim S131072 (![] : Fin 0 → Fin S131072.rank)
  dot_S131072x32_S64x32_S131072x64_1_1_0_0_n_n_wf : DotDims.WF S131072x32 S64x32 S131072x64 [1] [1] [0] [0] [] []

variable [Facts₀]

def dot_S131072x32_S64x32_S131072x64_1_1_0_0_n_n : DotDims S131072x32 S64x32 S131072x64 where
  lhsContracting := [1]
  rhsContracting := [1]
  lhsNonContracting := [0]
  rhsNonContracting := [0]
  lhsBatch := []
  rhsBatch := []
  wf := dot_S131072x32_S64x32_S131072x64_1_1_0_0_n_n_wf

class Facts : Prop extends Facts₀ where

variable [Facts]
-- ==== Proof.MixSpec.lean ====
/-
  The function both programs compute, at the ideal values (extended reals, every operation exact).

  For a sample row x_k (32 features), 64 components r with centres mu_r, widths sigma_r and an affine score with
  weights rho_r (32 of them) and bias rho_r[32]:

      weight(k, r) = exp( - Σ_a  q( (x_k[a] - mu_r[a])² , 2·sigma_r[a]² ) )
      score (k, r) = Σ_a x_k[a]·rho_r[a]  +  rho_r[32]
      out(k)       = ( Σ_r score(k, r)·weight(k, r) )  /  ( Σ_r weight(k, r) + ε )

  where q is how the squared distance is scaled by twice the squared width: the reference DIVIDES, q(s, w) = s / w;
  the kernel MULTIPLIES by a reciprocal taken beforehand, q(s, w) = s · (1 / w). On the extended reals the two agree
  whenever w ≠ 0 (both are s · w⁻¹; no finiteness is needed, the inverse of an infinity being 0 on both sides), and
  w = 2·sigma² is nonzero exactly when sigma is. At w = 0 they part: 0 / 0 and 0 · (1 / 0) = 0 · ⊤ are different
  extended reals, which is why the statement carries "every sigma is nonzero".
-/
import Idealize.ShloMosaic.PureOps.Ideal
import Idealize.ShloMosaic.PureOps.Ideal.Laws
import Idealize.ShloMosaic.Lib.ValueIdx

noncomputable section

open scoped BigOperators

namespace Cert.GaussMix

open Idealize.ShloMosaic Idealize.ShloMosaic.ValueIdx

/-- The literal 2.0 both programs scale the squared width by. -/
abbrev two : EReal := Ideal.ofBits .f32 0x40000000#32
/-- The literal 1.0 the kernel's host code takes the reciprocal of. -/
abbrev one : EReal := Ideal.ofBits .f32 0x3F800000#32
/-- The literal both programs add to the denominator (the f32 nearest 1e-13); the same word on both sides, never evaluated. -/
abbrev eps : EReal := Ideal.ofBits .f32 0x29E12E13#32

theorem one_eq : one = 1 := by
  simp [Ideal.ofBits, Ideal.ieee, -EReal.coe_mul]; norm_num

theorem two_eq : two = ((2 : ℝ) : EReal) := by
  simp [Ideal.ofBits, Ideal.ieee, -EReal.coe_mul]; norm_num

theorem two_ne : two ≠ 0 := by
  rw [two_eq]; exact_mod_cast (_root_.two_ne_zero : (2 : ℝ) ≠ 0)

/-- Multiplying by the reciprocal of a nonzero extended real is dividing by it: both are the product with its inverse. -/
theorem mul_recip_eq_div (s w : EReal) (hw : w ≠ 0) : s * Ideal.div one w = Ideal.div s w := by
  rw [one_eq]; unfold Ideal.div; rw [if_neg hw, if_neg hw, one_mul]

/-- Twice the square of a nonzero extended real is nonzero. -/
theorem twice_sq_ne_zero (s : EReal) (hs : s ≠ 0) : two * s * s ≠ 0 :=
  mul_ne_zero (mul_ne_zero two_ne hs) hs

/-! ## The function -/

/-- The squared distance of sample k from centre r along feature a. -/
def sqdist (x : (⟨2, ![131072, 32]⟩ : Shape).Idx → EReal) (mu : (⟨2, ![64, 32]⟩ : Shape).Idx → EReal)
    (k : Fin 131072) (r : Fin 64) (a : Fin 32) : EReal :=
  (x (ix2 k a) - mu (ix2 r a)) * (x (ix2 k a) - mu (ix2 r a))

/-- Twice the squared width of component r along feature a. -/
def width2 (sg : (⟨2, ![64, 32]⟩ : Shape).Idx → EReal) (r : Fin 64) (a : Fin 32) : EReal :=
  two * sg (ix2 r a) * sg (ix2 r a)

/-- The Gaussian weight of component r at sample k, the squared distances scaled by `q`. -/
def weight (q : EReal → EReal → EReal) (x : (⟨2, ![131072, 32]⟩ : Shape).Idx → EReal)
    (mu sg : (⟨2, ![64, 32]⟩ : Shape).Idx → EReal) (k : Fin 131072) (r : Fin 64) : EReal :=
  Ideal.exp (-(∑ a : Fin 32, q (sqdist x mu k r a) (width2 sg r a)))

/-- The affine score of component r at sample k: the first 32 columns of `rho` are the weights, column 32 the bias. -/
def score (x : (⟨2, ![131072, 32]⟩ : Shape).Idx → EReal) (rho : (⟨2, ![64, 33]⟩ : Shape).Idx → EReal)
    (k : Fin 131072) (r : Fin 64) : EReal :=
  (∑ a : Fin 32, x (ix2 k a) * rho (ix2 r a.castSucc)) + rho (ix2 r (Fin.last 32))

/-- The weighted mean of the scores at sample k. -/
def mixAt (q : EReal → EReal → EReal) (x : (⟨2, ![131072, 32]⟩ : Shape).Idx → EReal)
    (mu sg : (⟨2, ![64, 32]⟩ : Shape).Idx → EReal) (rho : (⟨2, ![64, 33]⟩ : Shape).Idx → EReal) (k : Fin 131072) : EReal :=
  Ideal.div (∑ r : Fin 64, score x rho k r * weight q x mu sg k r) ((∑ r : Fin 64, weight q x mu sg k r) + eps)

/-- The result array. -/
def mix (q : EReal → EReal → EReal) (x : (⟨2, ![131072, 32]⟩ : Shape).Idx → EReal)
    (mu sg : (⟨2, ![64, 32]⟩ : Shape).Idx → EReal) (rho : (⟨2, ![64, 33]⟩ : Shape).Idx → EReal) :
    (⟨1, ![131072]⟩ : Shape).Idx → EReal :=
  fun i => mixAt q x mu sg rho ⟨(i 0).val, (i 0).isLt⟩

/-- The reference's scaling: divide by twice the squared width. -/
abbrev byDiv : EReal → EReal → EReal := fun s w => Ideal.div s w
/-- The kernel's scaling: multiply by the reciprocal of twice the squared width. -/
abbrev byRecip : EReal → EReal → EReal := fun s w => s * Ideal.div one w

/-- Where every width is nonzero the two scalings give one result array. -/
theorem mix_byRecip_eq_byDiv (x : (⟨2, ![131072, 32]⟩ : Shape).Idx → EReal)
    (mu sg : (⟨2, ![64, 32]⟩ : Shape).Idx → EReal) (rho : (⟨2, ![64, 33]⟩ : Shape).Idx → EReal)
    (hsg : ∀ i, sg i ≠ 0) : mix byRecip x mu sg rho = mix byDiv x mu sg rho := by
  have hw : ∀ k r, weight byRecip x mu sg k r = weight byDiv x mu sg k r := fun k r => by
    unfold weight
    refine congrArg (fun e => Ideal.exp (-e)) (Finset.sum_congr rfl fun a _ => ?_)
    exact mul_recip_eq_div _ _ (twice_sq_ne_zero _ (hsg _))
  funext i
  unfold mix mixAt
  simp only [hw]

end Cert.GaussMix

end
-- ==== Proof.RefIsMix.lean ====
/-
  The reference, read one operation at a time, is the weighted mean of the scores with the squared distances DIVIDED
  by twice the squared widths: its einsum is the score's sum over the 32 features, its two broadcasts of `input` and
  `mu` to [131072, 64, 32] put sample k against centre r, its sum over the last axis is the exponent, and the two sums
  over the 64 components are numerator and denominator. Nothing here needs a hypothesis on the inputs: the host's sums
  start from the literal 0, which is the extended real 0, and adding it changes nothing.
-/
import proofs.«180466_j89601607729513_1_alg».proof.Proof.Gen.ReferenceIdeal.Read
import proofs.«180466_j89601607729513_1_alg».proof.Proof.MixSpec

noncomputable section

open scoped BigOperators

namespace Cert.GaussMix.Ref

open Cert.ReferenceIdeal Cert.ReferenceIdeal.Gen Cert.ReferenceIdeal.Read
open Idealize.ShloMosaic Idealize.ShloMosaic.ValueIdx Cert.GaussMix

variable (x0 : (⟨S131072x32, .f32⟩ : BufTy).Contents (Elt Ideal)) (x1 x2 : (⟨S64x32, .f32⟩ : BufTy).Contents (Elt Ideal))
  (x3 : (⟨S64x33, .f32⟩ : BufTy).Contents (Elt Ideal))

/-! ## Where each operand is read, for the entry (k, r, a) of the [131072, 64, 32] intermediates -/

/-- The broadcast sample is read at (k, a). -/
theorem sample_idx (k : Fin 131072) (r : Fin 64) (a : Fin 32) :
    idx_main_v7 (idx_main_v9 (idx_main_v19 (ix2 k r) a)) = ix2 k a :=
  funext fun d => Fin.ext (by match d with | ⟨0, _⟩ => rfl | ⟨1, _⟩ => rfl)

/-- The broadcast centre is read at (r, a). -/
theorem centre_idx (k : Fin 131072) (r : Fin 64) (a : Fin 32) :
    idx_main_v8 (idx_main_v10 (idx_main_v19 (ix2 k r) a)) = ix2 r a :=
  funext fun d => Fin.ext (by match d with | ⟨0, _⟩ => rfl | ⟨1, _⟩ => rfl)

/-- The broadcast width is read at (r, a). -/
theorem width_idx (k : Fin 131072) (r : Fin 64) (a : Fin 32) :
    idx_main_v16 (idx_main_v17 (idx_main_v19 (ix2 k r) a)) = ix2 r a :=
  funext fun d => Fin.ext (by match d with | ⟨0, _⟩ => rfl | ⟨1, _⟩ => rfl)

/-- The einsum's left factor is the sample at (k, a), -/
theorem lhs_idx (k : Fin 131072) (r : Fin 64) (a : Fin 32) : lidx_main_v1 (ix2 k r) a = ix2 k a :=
  funext fun d => Fin.ext (by match d with | ⟨0, _⟩ => rfl | ⟨1, _⟩ => rfl)

/-- and its right factor column a of row r of `rho`. -/
theorem rhs_idx (k : Fin 131072) (r : Fin 64) (a : Fin 32) :
    idx_main_v0 (ridx_main_v1 (ix2 k r) a) = ix2 r a.castSucc :=
  funext fun d => Fin.ext (by match d with | ⟨0, _⟩ => rfl | ⟨1, _⟩ => rfl)

/-- The bias added at (k, r) is column 32 of row r of `rho`. -/
theorem bias_idx (k : Fin 131072) (r : Fin 64) :
    idx_main_v2 (idx_main_v3 (idx_main_v4 (idx_main_v5 (ix2 k r)))) = ix2 r (Fin.last 32) :=
  funext fun d => Fin.ext (by match d with | ⟨0, _⟩ => exact Nat.div_one _ | ⟨1, _⟩ => rfl)

/-- Both sums over the components read row k. -/
theorem num_idx (k : Fin 131072) (r : Fin 64) : idx_main_v23 (ix1 k) r = ix2 k r :=
  funext fun d => Fin.ext (by match d with | ⟨0, _⟩ => rfl | ⟨1, _⟩ => rfl)
theorem den_idx (k : Fin 131072) (r : Fin 64) : idx_main_v24 (ix1 k) r = ix2 k r :=
  funext fun d => Fin.ext (by match d with | ⟨0, _⟩ => rfl | ⟨1, _⟩ => rfl)

/-! ## The stages -/

/-- The exponential of the negated sum over the features is the weight, scaled by division. -/
theorem weight_eq (k : Fin 131072) (r : Fin 64) :
    val_main_v21 (F := Ideal) x0 x1 x2 (ix2 k r) = weight byDiv x0 x1 x2 k r := by
  rw [val_main_v21_apply, val_main_v20_apply, val_main_v19_apply]
  simp only [val_main_v18_apply, val_main_v12_apply, val_main_v11_apply, val_main_v9_apply, val_main_v7_apply,
    val_main_v10_apply, val_main_v8_apply, val_main_v17_apply, val_main_v16_apply, val_main_v15_apply,
    val_main_v14_apply, val_main_v13_apply, val_main_cst_apply, val_main_cst_0_apply, sample_idx, centre_idx, width_idx,
    Ideal.hostUnary_exp_def, Ideal.hostNegf_def, Ideal.negf_def, Ideal.hostDivf_def, Ideal.mulf_def, Ideal.subf_def,
    Ideal.ofBits_def, Ideal.ofBits_zero_f32, zero_add]
  rfl

/-- The einsum plus the broadcast bias is the score. -/
theorem score_eq (k : Fin 131072) (r : Fin 64) :
    val_main_v6 (F := Ideal) x0 x3 (ix2 k r) = score x0 x3 k r := by
  rw [val_main_v6_apply, val_main_v1_apply, val_main_v5_apply, val_main_v4_apply, val_main_v3_apply, val_main_v2_apply]
  simp only [val_main_v0_apply, lhs_idx, rhs_idx, bias_idx, Ideal.addf_def]
  rfl

/-- The reference's last stage is the weighted mean of the scores, array for array. -/
theorem stage_eq_mix : val_main_v27 (F := Ideal) x0 x1 x2 x3 = mix byDiv x0 x1 x2 x3 := by
  funext i
  obtain ⟨k, rfl⟩ : ∃ k : Fin 131072, i = ix1 k := ⟨i 0, eq_ix1 i⟩
  rw [val_main_v27_apply, val_main_v23_apply, val_main_v26_apply, val_main_v24_apply, val_main_v25_apply]
  simp only [val_main_v22_apply, num_idx, den_idx, weight_eq, score_eq, val_main_cst_1_apply, val_main_cst_2_apply,
    val_main_cst_3_apply, Ideal.ofBits_def, Ideal.ofBits_zero_f32, zero_add, Ideal.hostDivf_def, Ideal.mulf_def,
    Ideal.addf_def]
  rfl

end Cert.GaussMix.Ref

end
-- ==== Proof.WidthNonzero.lean ====
/-
  What the precondition says of the widths. Its last conjunct is "every entry of sigma differs from 0", printed as a
  comparison of sigma with a broadcast 0, reduced by `and` over both axes, and joined to the finiteness conjuncts by
  `and`. Read back: every sigma[r, a], as an extended real, is not 0. (The finiteness conjuncts are not used: the two
  programs agree at infinite entries too.)
-/
import proofs.«180466_j89601607729513_1_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.GaussMix.Domain

open Idealize.ShloMosaic Cert.Pre_finite_inputs

variable [Cert.Pre_finite_inputs.Facts]

/-- A rank-0 array has one index. -/
instance : Subsingleton S_.Idx := ⟨fun _ _ => funext fun d => d.elim0⟩

/-- Under the precondition no width is zero. -/
theorem width_ne_zero (a0 : FVec Ideal S131072x32 .f32) (a1 a2 : FVec Ideal S64x32 .f32) (a3 : FVec Ideal S64x33 .f32)
    (h : fn (F := Ideal) a0 a1 a2 a3 = fun _ => 1#1) (i : S64x32.Idx) : a2 i ≠ 0 := by
  have h0 : fn (F := Ideal) a0 a1 a2 a3 ValueIdx.ix0 = 1#1 := congrFun h ValueIdx.ix0
  dsimp only [fn, fn_part1] at h0
  have h1 := (IntOp.andi_eq_one.1 h0).2
  have h2 := Host.reduce_andi_all _ _ _ _ _ h1 i
  have hb : (broadcastInDim S64x32 ![] Facts.bcast_S_S64x32 (constant (F := Ideal) S_ .f32 0x00000000#32)) i = 0 := by
    rw [broadcastInDim_apply _ Facts.bcast_S_S64x32 _ i ValueIdx.ix0 (fun a => a.elim0)]
    exact Ideal.ofBits_zero_f32
  intro hz
  have h3 : Ideal.cmp .une (a2 i) (0 : EReal) = 1#1 := by rw [← hb]; exact h2
  rw [hz] at h3
  simp [Ideal.cmp] at h3

end Cert.GaussMix.Domain

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KernelRow.lean ====
/-
  One grid point of the kernel, read at a row. The body holds a [1024, 32] block of samples, the whole [64, 32] centres
  and reciprocal widths, the [32, 64] transposed score weights and the [1, 64] bias row. Row p of its result is the
  weighted mean of the 64 scores of sample p: the two broadcasts to [1024, 64, 32] put sample p against component r, the
  sum over the last axis is the exponent, the matrix product into a zero accumulator is the score's sum over the 32
  features (a change of float format is the identity on the extended reals), and the two sums over axis 1 are numerator
  and denominator. Here the squared distance is MULTIPLIED by the block the kernel is handed in place of the widths.
-/
import proofs.«180466_j89601607729513_1_alg».proof.Proof.Gen.KernelIdeal.Skeleton
import proofs.«180466_j89601607729513_1_alg».proof.Proof.MixSpec
import proofs.«180466_j89601607729513_1_alg».proof.Proof.LibMatmulPlain
import Idealize.ShloMosaic.Lib.Pipeline.Value
import Idealize.ShloMosaic.PureOps.Ideal.Laws

noncomputable section

open scoped BigOperators

namespace Cert.GaussMix.Row

open Cert.KernelIdeal Cert.KernelIdeal.Gen
open Idealize.ShloMosaic Idealize.ShloMosaic.ValueIdx Cert.GaussMix

/-! ## The layout operations and reductions of the body, read at an index -/

/-- A [1024, 32] block recast to [1024, 1, 32] and broadcast along the new axis, at (p, r, a), is the block at (p, a). -/
theorem sample_bcast {α : Type} (v : S1024x32.Idx → α) (h1 : S1024x32.ShapeCasts S1024x1x32)
    (h2 : S1024x1x32.Broadcasts S1024x64x32) (p : Fin 1024) (r : Fin 64) (a : Fin 32) :
    broadcastTo S1024x64x32 (shapeCast S1024x1x32 v h1) h2 (ix3 p r a) = v (ix2 p a) := by
  rw [broadcastTo_apply _ h2 (ix3 p r a) (ix3 p 0 a) (fun ax => by
    match ax with
    | ⟨0, _⟩ => show p.val = if (1024 : Nat) = 1 then 0 else p.val; rw [if_neg (by decide)]
    | ⟨1, _⟩ => show 0 = if (1 : Nat) = 1 then 0 else r.val; rw [if_pos rfl]
    | ⟨2, _⟩ => show a.val = if (32 : Nat) = 1 then 0 else a.val; rw [if_neg (by decide)])]
  exact shapeCast_apply v h1 (ix3 p 0 a) (ix2 p a) (by
    rw [Shape.rowMajor_val_two, Shape.rowMajor_val_three]
    show p.val * 32 + a.val = (p.val * 1 + 0) * 32 + a.val
    omega)

/-- A [64, 32] block recast to [1, 64, 32] and broadcast along the new axis, at (p, r, a), is the block at (r, a). -/
theorem comp_bcast {α : Type} (v : S64x32.Idx → α) (h1 : S64x32.ShapeCasts S1x64x32)
    (h2 : S1x64x32.Broadcasts S1024x64x32) (p : Fin 1024) (r : Fin 64) (a : Fin 32) :
    broadcastTo S1024x64x32 (shapeCast S1x64x32 v h1) h2 (ix3 p r a) = v (ix2 r a) := by
  rw [broadcastTo_apply _ h2 (ix3 p r a) (ix3 0 r a) (fun ax => by
    match ax with
    | ⟨0, _⟩ => show 0 = if (1 : Nat) = 1 then 0 else p.val; rw [if_pos rfl]
    | ⟨1, _⟩ => show r.val = if (64 : Nat) = 1 then 0 else r.val; rw [if_neg (by decide)]
    | ⟨2, _⟩ => show a.val = if (32 : Nat) = 1 then 0 else a.val; rw [if_neg (by decide)])]
  exact shapeCast_apply v h1 (ix3 0 r a) (ix2 r a) (by
    rw [Shape.rowMajor_val_two, Shape.rowMajor_val_three]
    show r.val * 32 + a.val = (0 * 64 + r.val) * 32 + a.val
    omega)

/-- The sum over the feature axis of a [1024, 64, 32] vector, at (p, r). -/
theorem feature_sum (v : FVec Ideal S1024x64x32 .f32) (h : S1024x64x32.Reduces [2] S1024x64) (hφ : FKind.Formats .f32)
    (hacc : (0x00000000#32 : BitVec (FTy.bits .f32)) = FKind.add.neutral .f32 hφ) (p : Fin 1024) (r : Fin 64) :
    multiReduction .add [2] S1024x64 v 0x00000000#32 h hφ hacc (ix2 p r) = ∑ a : Fin 32, v (ix3 p r a) :=
  (Ideal.multiReduction_add_single v _ h hφ hacc (ix2 p r)).trans
    (Finset.sum_congr rfl fun a _ => congrArg v (funext fun d => Fin.ext (by
      match d with | ⟨0, _⟩ => rfl | ⟨1, _⟩ => rfl | ⟨2, _⟩ => rfl)))

/-- The sum over the component axis of a [1024, 64] vector, at p. -/
theorem comp_sum (v : FVec Ideal S1024x64 .f32) (h : S1024x64.Reduces [1] S1024) (hφ : FKind.Formats .f32)
    (hacc : (0x00000000#32 : BitVec (FTy.bits .f32)) = FKind.add.neutral .f32 hφ) (p : Fin 1024) :
    multiReduction .add [1] S1024 v 0x00000000#32 h hφ hacc (ix1 p) = ∑ r : Fin 64, v (ix2 p r) :=
  (Ideal.multiReduction_add_single v _ h hφ hacc (ix1 p)).trans
    (Finset.sum_congr rfl fun r _ => congrArg v (funext fun d => Fin.ext (by
      match d with | ⟨0, _⟩ => rfl | ⟨1, _⟩ => rfl)))

/-- The body's matrix product into the zero accumulator, at (p, r): the sum over the 32 features. -/
theorem score_prod (A : FVec Ideal S1024x32 .bf16) (B : FVec Ideal S32x64 .bf16) (p : Fin 1024) (r : Fin 64) :
    matmul dot_S1024x32_S32x64_S1024x64_1_0_0_1_n_n none A B (constant S1024x64 .f32 0x00000000#32) (ix2 p r)
      = ∑ a : Fin 32, A (ix2 p a) * B (ix2 a r) :=
  Cert.LibMatmulPlain.matmul_plain_zero_apply none A B p r

theorem exp_apply {s : Shape} {φ : FTy} (v : FVec Ideal s φ) (i : s.Idx) : exp v i = Ideal.exp (v i) := rfl

/-- The exponential of the negated feature sum of (A - B)·(A - B)·C at (p, r), for any three [1024, 64, 32] vectors whose
    entries at (p, r, ·) are known. -/
theorem weight_of (A B C : FVec Ideal S1024x64x32 .f32) (h : S1024x64x32.Reduces [2] S1024x64) (hφ : FKind.Formats .f32)
    (hacc : (0x00000000#32 : BitVec (FTy.bits .f32)) = FKind.add.neutral .f32 hφ) (p : Fin 1024) (r : Fin 64)
    (x m w : Fin 32 → EReal) (hA : ∀ a, A (ix3 p r a) = x a) (hB : ∀ a, B (ix3 p r a) = m a)
    (hC : ∀ a, C (ix3 p r a) = w a) :
    exp (subf (broadcast S1024x64 (Scalar.ofBits (F := Ideal) .f32 0x00000000#32))
        (multiReduction .add [2] S1024x64 (mulf (mulf (subf A B) (subf A B)) C) 0x00000000#32 h hφ hacc)) (ix2 p r)
      = Ideal.exp (-(∑ a : Fin 32, (x a - m a) * (x a - m a) * w a)) := by
  rw [exp_apply, subf_apply, broadcast_apply, feature_sum]
  simp only [mulf_apply, subf_apply, hA, hB, hC]
  show Ideal.exp (Ideal.ofBits .f32 0x00000000#32 - _) = _
  rw [Ideal.ofBits_zero_f32, zero_sub]

/-- The matrix product into zero plus a [1024, 64] vector, at (p, r). -/
theorem score_of (A : FVec Ideal S1024x32 .bf16) (B : FVec Ideal S32x64 .bf16) (R : FVec Ideal S1024x64 .f32)
    (p : Fin 1024) (r : Fin 64) :
    addf (matmul dot_S1024x32_S32x64_S1024x64_1_0_0_1_n_n none A B (constant S1024x64 .f32 0x00000000#32)) R (ix2 p r)
      = (∑ a : Fin 32, A (ix2 p a) * B (ix2 a r)) + R (ix2 p r) :=
  congrArg (· + R (ix2 p r)) (score_prod A B p r)

/-- The quotient of the two component sums, at p. -/
theorem row_of (Sc W : FVec Ideal S1024x64 .f32) (h : S1024x64.Reduces [1] S1024) (hφ : FKind.Formats .f32)
    (hacc : (0x00000000#32 : BitVec (FTy.bits .f32)) = FKind.add.neutral .f32 hφ) (e : Ideal .f32) (p : Fin 1024) :
    divf (multiReduction .add [1] S1024 (mulf Sc W) 0x00000000#32 h hφ hacc)
        (addf (multiReduction .add [1] S1024 W 0x00000000#32 h hφ hacc) (broadcast S1024 e)) (ix1 p)
      = Ideal.div (∑ r : Fin 64, Sc (ix2 p r) * W (ix2 p r)) ((∑ r : Fin 64, W (ix2 p r)) + e) := by
  rw [divf_apply, addf_apply, broadcast_apply, comp_sum, comp_sum]
  simp only [mulf_apply]

/-! ## Row p of the body's result -/

/-- The weight the body computes for sample p and component r: `iw` is the block it multiplies the squared distances by. -/
def rowWeight (xs : S1024x32.Idx → EReal) (mu iw : S64x32.Idx → EReal) (p : Fin 1024) (r : Fin 64) : EReal :=
  Ideal.exp (-(∑ a : Fin 32, (xs (ix2 p a) - mu (ix2 r a)) * (xs (ix2 p a) - mu (ix2 r a)) * iw (ix2 r a)))

/-- The score the body computes for sample p and component r from the transposed weights and the bias row. -/
def rowScore (xs : S1024x32.Idx → EReal) (wT : S32x64.Idx → EReal) (b : S1x64.Idx → EReal) (p : Fin 1024) (r : Fin 64) : EReal :=
  (∑ a : Fin 32, xs (ix2 p a) * wT (ix2 a r)) + b (ix2 0 r)

/-- Row p of what the body stores. -/
theorem pay_at (xs : Vec Ideal S1024x32 .f32) (mu iw : Vec Ideal S64x32 .f32) (wT : Vec Ideal S32x64 .bf16)
    (b : Vec Ideal S1x64 .f32) (p : Fin 1024) :
    k0_pay1 (F := Ideal) xs mu iw wT b (ix1 p)
      = Ideal.div (∑ r : Fin 64, rowScore xs wT b p r * rowWeight xs mu iw p r)
          ((∑ r : Fin 64, rowWeight xs mu iw p r) + eps) := by
  have hW : ∀ (h1 : S1024x32.ShapeCasts S1024x1x32) (h2 : S1024x1x32.Broadcasts S1024x64x32)
      (h3 : S64x32.ShapeCasts S1x64x32) (h4 : S1x64x32.Broadcasts S1024x64x32) (h5 : S64x32.ShapeCasts S64x32)
      (h : S1024x64x32.Reduces [2] S1024x64) (hφ : FKind.Formats .f32)
      (hacc : (0x00000000#32 : BitVec (FTy.bits .f32)) = FKind.add.neutral .f32 hφ) (r : Fin 64),
      exp (subf (broadcast S1024x64 (Scalar.ofBits (F := Ideal) .f32 0x00000000#32))
        (multiReduction .add [2] S1024x64 (mulf (mulf
          (subf (broadcastTo S1024x64x32 (shapeCast S1024x1x32 xs h1) h2) (broadcastTo S1024x64x32 (shapeCast S1x64x32 mu h3) h4))
          (subf (broadcastTo S1024x64x32 (shapeCast S1024x1x32 xs h1) h2) (broadcastTo S1024x64x32 (shapeCast S1x64x32 mu h3) h4)))
          (broadcastTo S1024x64x32 (shapeCast S1x64x32 (shapeCast S64x32 iw h5) h3) h4)) 0x00000000#32 h hφ hacc)) (ix2 p r)
        = rowWeight xs mu iw p r := fun h1 h2 h3 h4 h5 h hφ hacc r =>
    weight_of _ _ _ h hφ hacc p r _ _ _ (fun a => sample_bcast xs h1 h2 p r a) (fun a => comp_bcast mu h3 h4 p r a)
      (fun a => (comp_bcast _ h3 h4 p r a).trans (congrFun (shapeCast_self iw h5) _))
  unfold k0_pay1
  refine (row_of _ _ _ _ _ _ p).trans ?_
  refine congrArg₂ Ideal.div (Finset.sum_congr rfl fun r _ => congrArg₂ (· * ·) ?_ (hW _ _ _ _ _ _ _ _ r))
    (congrArg₂ (· + ·) (Finset.sum_congr rfl fun r _ => hW _ _ _ _ _ _ _ _ r) rfl)
  refine (score_of _ _ _ p r).trans ?_
  unfold rowScore
  simp only [truncf_apply, shapeCast_self, Cert.LibMatmulPlain.rowBroadcast_apply]

end Cert.GaussMix.Row

end
-- ==== Proof.HostBlocks.lean ====
/-
  What the host code ahead of the region leaves in the three arrays it builds for the kernel, entry by entry, in terms
  of the arguments: the reciprocal 1 / (2·sigma·sigma) of twice the squared widths; the first 32 columns of `rho`
  transposed (the change to the narrower float format is the identity on the extended reals); and column 32 of `rho` laid
  out as one row.
-/
import proofs.«180466_j89601607729513_1_alg».proof.Proof.Gen.KernelIdeal.Frame
import proofs.«180466_j89601607729513_1_alg».proof.Proof.MixSpec
import Idealize.ShloMosaic.Lib.StableHlo.Run
import Idealize.ShloMosaic.Lib.Pipeline.Value
import Idealize.ShloMosaic.Lib.ValueIdx

noncomputable section

namespace Cert.GaussMix.HostSide

open Cert.KernelIdeal Cert.KernelIdeal.Gen
open Idealize.ShloMosaic Idealize.ShloMosaic.TcCoe Idealize.SL.Sem Idealize.ShloMosaic.StableHlo
open Idealize.ShloMosaic.ValueIdx Cert.GaussMix

variable (m : (ℓ : Loc nD τ sig) → Buf (Elt Ideal) ℓ)

/-! ## The reciprocal of twice the squared widths -/

theorem recip_eq (c : Dev nD) : (V m c main_v4 : S64x32.Idx → EReal)
    = Host.divf (broadcastInDim S64x32 ![] bcast_S_S64x32 (constant (F := Ideal) S_ .f32 0x3F800000#32))
        (mulf (mulf (broadcastInDim S64x32 ![] bcast_S_S64x32 (constant (F := Ideal) S_ .f32 0x40000000#32))
          (m ((c : Thread nD τ).loc main_arg2))) (m ((c : Thread nD τ).loc main_arg2))) := by
  dsimp only [V, hostOps0]; after_results

/-- Entry (r, a) is 1 / (2·sigma[r, a]·sigma[r, a]), the division being the extended reals' (by zero included). -/
theorem recip_at (c : Dev nD) (r : Fin 64) (a : Fin 32) :
    (V m c main_v4 : S64x32.Idx → EReal) (ix2 r a)
      = Ideal.div one (width2 (m ((c : Thread nD τ).loc main_arg2)) r a) := by
  have hb : ∀ w : BitVec 32, broadcastInDim S64x32 ![] bcast_S_S64x32 (constant (F := Ideal) S_ .f32 w) (ix2 r a)
      = Ideal.ofBits .f32 w := fun w =>
    broadcastInDim_apply _ bcast_S_S64x32 _ (ix2 r a) ix0 (fun d => d.elim0)
  rw [recip_eq]
  show Ideal.div (broadcastInDim S64x32 ![] bcast_S_S64x32 (constant (F := Ideal) S_ .f32 0x3F800000#32) (ix2 r a))
    (broadcastInDim S64x32 ![] bcast_S_S64x32 (constant (F := Ideal) S_ .f32 0x40000000#32) (ix2 r a) * _ * _) = _
  rw [hb, hb]
  rfl

/-! ## The transposed score weights -/

theorem wT_eq (c : Dev nD) : (V m c main_v10 : S32x64.Idx → EReal)
    = truncf (F := Ideal) .bf16 (transpose S32x64 [1, 0] (extractStridedSlice S64x32 ![0, 0]
        (m ((c : Thread nD τ).loc main_arg3)) slices_S64x33_S64x32_0_0) transposes_S64x32_S32x64_1_0) bitsLt_bf16_f32 := by
  dsimp only [V, hostOps0]; after_results <;> rfl

/-- Entry (a, r) is rho[r, a]. -/
theorem wT_at (c : Dev nD) (a : Fin 32) (r : Fin 64) :
    (V m c main_v10 : S32x64.Idx → EReal) (ix2 a r)
      = (m ((c : Thread nD τ).loc main_arg3) : S64x33.Idx → EReal) (ix2 r a.castSucc) := by
  rw [wT_eq]
  rw [truncf_apply, transpose_apply [1, 0] _ transposes_S64x32_S32x64_1_0 (ix2 a r) (ix2 r a) (fun b => by
    match b with | ⟨0, _⟩ => rfl | ⟨1, _⟩ => rfl)]
  exact extractStridedSlice_apply ![0, 0] _ slices_S64x33_S64x32_0_0 (ix2 r a) (ix2 r a.castSucc) (fun d => by
    match d with
    | ⟨0, _⟩ => show r.val = 0 + r.val; omega
    | ⟨1, _⟩ => show a.val = 0 + a.val; omega)

/-! ## The bias row -/

theorem bias_eq (c : Dev nD) : (V m c main_v8 : S1x64.Idx → EReal)
    = shapeCast S1x64 (shapeCast S64 (extractStridedSlice S64x1 ![0, 32] (m ((c : Thread nD τ).loc main_arg3))
        slices_S64x33_S64x1_0_32) shapeCasts_S64x1_S64) shapeCasts_S64_S1x64 := by
  dsimp only [V, hostOps0]; after_results <;> rfl

/-- Entry (0, r) is rho[r, 32]. -/
theorem bias_at (c : Dev nD) (r : Fin 64) :
    (V m c main_v8 : S1x64.Idx → EReal) (ix2 0 r)
      = (m ((c : Thread nD τ).loc main_arg3) : S64x33.Idx → EReal) (ix2 r (Fin.last 32)) := by
  rw [bias_eq]
  rw [shapeCast_apply _ shapeCasts_S64_S1x64 (ix2 0 r) (ix1 r) (by
    rw [Shape.rowMajor_val_one, Shape.rowMajor_val_two]; show r.val = 0 * 64 + r.val; omega)]
  rw [shapeCast_apply _ shapeCasts_S64x1_S64 (ix1 r) (ix2 r 0) (by
    rw [Shape.rowMajor_val_two, Shape.rowMajor_val_one]; show r.val * 1 + 0 = r.val; omega)]
  exact extractStridedSlice_apply ![0, 32] _ slices_S64x33_S64x1_0_32 (ix2 r 0) (ix2 r (Fin.last 32)) (fun d => by
    match d with
    | ⟨0, _⟩ => show r.val = 0 + r.val; omega
    | ⟨1, _⟩ => rfl)

end Cert.GaussMix.HostSide

end
-- ==== Proof.KernelArray.lean ====
/-
  From one grid point to the whole result. Grid point t holds rows 1024·t … 1024·t + 1023 of `input` and writes the
  same rows of the result; the other four windows are whole arrays at every point. So row p of what point t writes is
  the weighted mean for sample 1024·t + p, with the squared distances multiplied by the reciprocal block the host code
  built, and the 128 blocks tile the 131072 rows: the result array is that function of the arguments at every index.
-/
import proofs.«180466_j89601607729513_1_alg».proof.Proof.Gen.KernelIdeal.Value
import proofs.«180466_j89601607729513_1_alg».proof.Proof.KernelRow
import proofs.«180466_j89601607729513_1_alg».proof.Proof.HostBlocks
import proofs.«180466_j89601607729513_1_alg».proof.Proof.MixSpec
import Idealize.ShloMosaic.Lib.Pipeline.Value

-- membership in a rectangle of these extents is looked at once per coordinate of the long axis
set_option maxRecDepth 16384

noncomputable section

open scoped BigOperators

namespace Cert.GaussMix.Arr

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.GaussMix Cert.GaussMix.Row Cert.GaussMix.HostSide

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the sample window and the result window are at block t, the other four at
    block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

theorem t_lt (t : Fin cfg0.N) : t.val < 128 :=
  lt_of_lt_of_eq t.isLt (show cfg0.N = 128 from N_0)

/-- The sample that row p of grid point t belongs to. -/
def rowOf (t : Fin cfg0.N) (p : Fin 1024) : Fin 131072 :=
  ⟨t.val * 1024 + p.val, by have := t_lt t; have := p.isLt; omega⟩

/-! ## The five input blocks at a point, entry by entry -/

theorem xblk_at (c : Dev nD) (t : Fin cfg0.N) (p : Fin 1024) (a : Fin 32) :
    (iblk m c 0 t : Vec Ideal S1024x32 .f32) (ix2 p a)
      = (m ((c : Thread nD τ).loc main_arg0) : S131072x32.Idx → EReal) (ix2 (rowOf t p) a) := by
  obtain ⟨e0, e1, -⟩ := idx_facts t
  unfold iblk
  rw [View.read_apply]
  show V m c main_arg0 _ = _
  rw [V_main_arg0]
  congr 1
  funext d; apply Fin.ext
  match d with
  | ⟨0, _⟩ => show win0_0.index t 0 * 1024 + 1 * p.val = t.val * 1024 + p.val; rw [e0]; omega
  | ⟨1, _⟩ => show win0_0.index t 1 * 32 + 1 * a.val = a.val; rw [e1]; omega

theorem mublk_at (c : Dev nD) (t : Fin cfg0.N) (r : Fin 64) (a : Fin 32) :
    (iblk m c 1 t : Vec Ideal S64x32 .f32) (ix2 r a)
      = (m ((c : Thread nD τ).loc main_arg1) : S64x32.Idx → EReal) (ix2 r a) := by
  obtain ⟨-, -, e0, e1, -⟩ := idx_facts t
  unfold iblk
  rw [View.read_apply]
  show V m c main_arg1 _ = _
  rw [V_main_arg1]
  congr 1
  funext d; apply Fin.ext
  match d with
  | ⟨0, _⟩ => show win0_1.index t 0 * 64 + 1 * r.val = r.val; rw [e0]; omega
  | ⟨1, _⟩ => show win0_1.index t 1 * 32 + 1 * a.val = a.val; rw [e1]; omega

theorem iwblk_at (c : Dev nD) (t : Fin cfg0.N) (r : Fin 64) (a : Fin 32) :
    (iblk m c 2 t : Vec Ideal S64x32 .f32) (ix2 r a)
      = Ideal.div one (width2 (m ((c : Thread nD τ).loc main_arg2)) r a) := by
  obtain ⟨-, -, -, -, e0, e1, -⟩ := idx_facts t
  rw [← recip_at m c r a]
  unfold iblk
  rw [View.read_apply]
  show V m c main_v4 _ = V m c main_v4 _
  congr 1
  funext d; apply Fin.ext
  match d with
  | ⟨0, _⟩ => show win0_2.index t 0 * 64 + 1 * r.val = r.val; rw [e0]; omega
  | ⟨1, _⟩ => show win0_2.index t 1 * 32 + 1 * a.val = a.val; rw [e1]; omega

theorem wTblk_at (c : Dev nD) (t : Fin cfg0.N) (a : Fin 32) (r : Fin 64) :
    (iblk m c 3 t : Vec Ideal S32x64 .bf16) (ix2 a r)
      = (m ((c : Thread nD τ).loc main_arg3) : S64x33.Idx → EReal) (ix2 r a.castSucc) := by
  obtain ⟨-, -, -, -, -, -, e0, e1, -⟩ := idx_facts t
  rw [← wT_at m c a r]
  unfold iblk
  rw [View.read_apply]
  show V m c main_v10 _ = V m c main_v10 _
  congr 1
  funext d; apply Fin.ext
  match d with
  | ⟨0, _⟩ => show win0_3.index t 0 * 32 + 1 * a.val = a.val; rw [e0]; omega
  | ⟨1, _⟩ => show win0_3.index t 1 * 64 + 1 * r.val = r.val; rw [e1]; omega

theorem biasblk_at (c : Dev nD) (t : Fin cfg0.N) (r : Fin 64) :
    (iblk m c 4 t : Vec Ideal S1x64 .f32) (ix2 0 r)
      = (m ((c : Thread nD τ).loc main_arg3) : S64x33.Idx → EReal) (ix2 r (Fin.last 32)) := by
  obtain ⟨-, -, -, -, -, -, -, -, e0, e1, -⟩ := idx_facts t
  rw [← bias_at m c r]
  unfold iblk
  rw [View.read_apply]
  show V m c main_v8 _ = V m c main_v8 _
  congr 1
  funext d; apply Fin.ext
  match d with
  | ⟨0, _⟩ => show win0_4.index t 0 * 1 + 1 * 0 = 0; rw [e0]
  | ⟨1, _⟩ => show win0_4.index t 1 * 64 + 1 * r.val = r.val; rw [e1]; omega

/-! ## Row p of point t is sample 1024·t + p -/

theorem rowWeight_blk (c : Dev nD) (t : Fin cfg0.N) (p : Fin 1024) (r : Fin 64) :
    rowWeight (iblk m c 0 t) (iblk m c 1 t) (iblk m c 2 t) p r
      = weight byRecip (m ((c : Thread nD τ).loc main_arg0)) (m ((c : Thread nD τ).loc main_arg1))
          (m ((c : Thread nD τ).loc main_arg2)) (rowOf t p) r := by
  unfold rowWeight weight
  refine congrArg (fun e => Ideal.exp (-e)) (Finset.sum_congr rfl fun a _ => ?_)
  rw [xblk_at m c t p a, mublk_at m c t r a, iwblk_at m c t r a]
  rfl

theorem rowScore_blk (c : Dev nD) (t : Fin cfg0.N) (p : Fin 1024) (r : Fin 64) :
    rowScore (iblk m c 0 t) (iblk m c 3 t) (iblk m c 4 t) p r
      = score (m ((c : Thread nD τ).loc main_arg0)) (m ((c : Thread nD τ).loc main_arg3)) (rowOf t p) r := by
  unfold rowScore score
  refine congrArg₂ (· + ·) (Finset.sum_congr rfl fun a _ => ?_) (biasblk_at m c t r)
  rw [xblk_at m c t p a, wTblk_at m c t a r]

/-- What the body stores, at any index of its [1024] result. -/
theorem pay_at_idx (xs : Vec Ideal S1024x32 .f32) (mu iw : Vec Ideal S64x32 .f32) (wT : Vec Ideal S32x64 .bf16)
    (b : Vec Ideal S1x64 .f32) (j : S1024.Idx) :
    k0_pay1 (F := Ideal) xs mu iw wT b j
      = Ideal.div (∑ r : Fin 64, rowScore xs wT b (j 0) r * rowWeight xs mu iw (j 0) r)
          ((∑ r : Fin 64, rowWeight xs mu iw (j 0) r) + eps) :=
  (congrArg (k0_pay1 (F := Ideal) xs mu iw wT b) (eq_ix1 j)).trans (pay_at xs mu iw wT b (j 0))

/-! ## The result array -/

/-- The result the kernel leaves: the weighted means with the squared distances multiplied by the reciprocals. -/
abbrev kernelMix (c : Dev nD) : S131072.Idx → EReal :=
  mix byRecip (m ((c : Thread nD τ).loc main_arg0)) (m ((c : Thread nD τ).loc main_arg1))
    (m ((c : Thread nD τ).loc main_arg2)) (m ((c : Thread nD τ).loc main_arg3))

/-- What point t writes back is block t of that array. -/
theorem flushed_eq (c : Dev nD) (t : Fin cfg0.N) :
    (dats m 0 c).flushed 5 t = ((cfg0.win 5).blk t).view.read (Elt Ideal) (kernelMix m c) := by
  rw [flushed5]
  unfold out0_5
  rw [View.canon_unit_zero hz1]
  simp only [View.ld_unit_zero (S := S1024x32) hz2, View.ld_unit_zero (S := S64x32) hz2,
    View.ld_unit_zero (S := S32x64) hz2, View.ld_unit_zero (S := S1x64) hz2]
  obtain ⟨-, -, -, -, -, -, -, -, -, -, e5⟩ := idx_facts t
  funext j
  have hrow : (⟨(((cfg0.win 5).blk t).view.emb j 0).val, (((cfg0.win 5).blk t).view.emb j 0).isLt⟩ : Fin 131072)
      = rowOf t (j 0) :=
    Fin.ext (by show win0_5.index t 0 * 1024 + 1 * (j 0).val = t.val * 1024 + (j 0).val; rw [e5]; omega)
  show k0_pay1 (F := Ideal) (iblk m c 0 t) (iblk m c 1 t) (iblk m c 2 t) (iblk m c 3 t) (iblk m c 4 t) j
    = mixAt byRecip _ _ _ _ ⟨(((cfg0.win 5).blk t).view.emb j 0).val, (((cfg0.win 5).blk t).view.emb j 0).isLt⟩
  refine (pay_at_idx _ _ _ _ _ j).trans ((?_ : _ = mixAt byRecip _ _ _ _ (rowOf t (j 0))).trans
    (congrArg (mixAt byRecip _ _ _ _) hrow.symm))
  unfold mixAt
  exact congrArg₂ Ideal.div
    (Finset.sum_congr rfl fun r _ => congrArg₂ (· * ·) (rowScore_blk m c t (j 0) r) (rowWeight_blk m c t (j 0) r))
    (congrArg₂ (· + ·) (Finset.sum_congr rfl fun r _ => rowWeight_blk m c t (j 0) r) rfl)

/-- An index of the result is in point t's block iff it lies in rows 1024·t … 1024·t + 1023. -/
theorem mem_blk (t : Fin cfg0.N) (i : S131072.Idx) :
    i ∈ ((cfg0.win 5).blk t).view.set ↔ ∀ a : Fin 1, win0_5.index t a * S1024.size a ≤ (i a).val
      ∧ (i a).val < win0_5.index t a * S1024.size a + S1024.size a := by
  show i ∈ ((View.whole main_v11).slice (win0_5.rect t)).set ↔ _
  rw [View.set_slice_whole, Rect.mem_set_unit]
  exact Iff.rfl

/-- Every row is in the block of the point it divides into. -/
theorem cover (i : S131072.Idx) :
    ∃ t : Fin cfg0.N, (cfg0.win 5).flush t = true ∧ i ∈ ((cfg0.win 5).blk t).view.set := by
  have hi : (i 0).val < 131072 := (i 0).isLt
  have hN : cfg0.N = 128 := N_0
  refine ⟨⟨(i 0).val / 1024, by rw [hN]; omega⟩, flush0_5 _, ?_⟩
  rw [mem_blk]
  intro a
  obtain ⟨-, -, -, -, -, -, -, -, -, -, e5⟩ := idx_facts ⟨(i 0).val / 1024, by rw [hN]; omega⟩
  match a with
  | ⟨0, _⟩ =>
    show win0_5.index _ 0 * 1024 ≤ (i 0).val ∧ (i 0).val < win0_5.index _ 0 * 1024 + 1024
    rw [e5]
    show (i 0).val / 1024 * 1024 ≤ (i 0).val ∧ (i 0).val < (i 0).val / 1024 * 1024 + 1024
    omega

/-- The result array after the run. -/
theorem final (c : Dev nD) : (dats m 0 c).arrAt 5 cfg0.N = kernelMix m c :=
  (dats m 0 c).arrAt_eq_of_cover 5 (kernelMix m c) (fun t _ => flushed_eq m c t) cover

/-- The kernel's run, read: the result at `kernelMix`, the arguments unchanged. -/
theorem run : θ_run defs (onTc (τ := τ) (main (F := Ideal))) ⟨m, fun _ => 0, ρ⟩ fun r => ∀ c : Dev nD,
      r.2.mem ((c : Thread nD τ).loc main_v11) = kernelMix m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.GaussMix.Arr

end
-- ==== Proof.lean ====
/-
  A mixture-of-experts readout: for each of 131072 samples x_k (32 features), 64 Gaussian components with centres mu_r and
  widths sigma_r weigh 64 affine scores z(k, r) = x_k · rho_r[:32] + rho_r[32];

      out(k) = Σ_r z(k, r)·w(k, r) / (Σ_r w(k, r) + ε),     w(k, r) = exp(-Σ_a (x_k[a] - mu_r[a])² / (2·sigma_r[a]²)).

  The kernel streams the samples in 128 blocks of 1024 rows. Against the reference it differs in three ways, two of which
  are nothing on the extended reals: the scores come from a matrix product of narrower-format copies (a change of
  format is the identity, and a product into a zero accumulator is the same sum over the 32 features as the reference's
  contraction), and the exponent is negated as 0 - e rather than -e. The third is real: the kernel's host code forms
  1 / (2·sigma²) once and the body MULTIPLIES the squared distances by it, where the reference DIVIDES by 2·sigma². For
  a nonzero divisor w both are s · w⁻¹ (s · (1 · w⁻¹) on one side), at infinite s or w as well, so no finiteness is
  used; at w = 0 they are different extended reals (0 · (1/0) = 0 · ⊤ = 0 against 0 / 0 = ⊥), and the results differ
  there. The statement therefore carries "no sigma is zero" — the reference's own divisor being nonzero — and under it
  the two result arrays are equal entry by entry.

  The pieces: the function and the law joining the two scalings (MixSpec); the reference's stages are that function
  (RefIsMix); the precondition gives nonzero widths (WidthNonzero); one grid point at a row (KernelRow); what the host
  code hands the kernel (HostBlocks); the 128 blocks tile the result (KernelArray). The three frames are the generated
  ones (the reference's is its run with the result dropped); the idealization rewrote nothing.
-/
import proofs.«180466_j89601607729513_1_alg».proof.Defs
import proofs.«180466_j89601607729513_1_alg».proof.Proof.Gen.Kernel
import proofs.«180466_j89601607729513_1_alg».proof.Proof.Gen.Kernel.Skeleton
import proofs.«180466_j89601607729513_1_alg».proof.Proof.Gen.Kernel.Launch
import proofs.«180466_j89601607729513_1_alg».proof.Proof.Gen.Kernel.Points
import proofs.«180466_j89601607729513_1_alg».proof.Proof.Gen.Kernel.Frame
import proofs.«180466_j89601607729513_1_alg».proof.Proof.Gen.KernelIdeal
import proofs.«180466_j89601607729513_1_alg».proof.Proof.Gen.KernelIdeal.Skeleton
import proofs.«180466_j89601607729513_1_alg».proof.Proof.Gen.KernelIdeal.Launch
import proofs.«180466_j89601607729513_1_alg».proof.Proof.Gen.KernelIdeal.Points
import proofs.«180466_j89601607729513_1_alg».proof.Proof.Gen.KernelIdeal.Frame
import proofs.«180466_j89601607729513_1_alg».proof.Proof.Gen.ReferenceIdeal
import proofs.«180466_j89601607729513_1_alg».proof.Proof.Gen.Pre_finite_inputs
import proofs.«180466_j89601607729513_1_alg».proof.Proof.Gen.KernelIdeal.Value
import proofs.«180466_j89601607729513_1_alg».proof.Proof.Gen.ReferenceIdeal.Run
import proofs.«180466_j89601607729513_1_alg».proof.Proof.Gen.ReferenceIdeal.Read
import proofs.«180466_j89601607729513_1_alg».proof.Proof.MixSpec
import proofs.«180466_j89601607729513_1_alg».proof.Proof.RefIsMix
import proofs.«180466_j89601607729513_1_alg».proof.Proof.WidthNonzero
import proofs.«180466_j89601607729513_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, with no width zero, both programs end with the weighted means: the
    kernel's array is the function with the reciprocal scaling, the reference's the function with the quotient, and the
    two are one array where every divisor 2·sigma² is nonzero. -/
theorem algebraic : Cert.algebraic_KernelIdeal_ReferenceIdeal := by
  intro m ρ m' ρ' hpre hagree
  refine ⟨fun c => Cert.GaussMix.Arr.kernelMix m c, Cert.GaussMix.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.GaussMix.Ref.stage_eq_mix, (hagree c).1, (hagree c).2.1,
    (hagree c).2.2.1, (hagree c).2.2.2]
  exact (Cert.GaussMix.mix_byRecip_eq_byDiv _ _ _ _ (Cert.GaussMix.Domain.width_ne_zero _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
